-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S327680x128 : Shape := ⟨2, ![327680, 128]⟩
abbrev S1x128 : Shape := ⟨2, ![1, 128]⟩
abbrev S512x128 : Shape := ⟨2, ![512, 128]⟩
abbrev S128 : Shape := ⟨1, ![128]⟩
abbrev S128x128 : Shape := ⟨2, ![128, 128]⟩
abbrev S_ : Shape := ⟨0, ![]⟩

class Facts : Prop where
  bcast_S_S327680x128 : S_.BroadcastsInDim S327680x128 (![] : Fin 0 → Fin S327680x128.rank)
  reducesTo_S327680x128_S_d0_1 : S327680x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_v48 main_v49 main_v50

def fn_part1 {F : FTy → Type} [FloatOps F] (main_arg4 : FVec F S512x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S327680x128 .f32) (main_arg1 : FVec F S327680x128 .f32) (main_arg2 : FVec F S327680x128 .f32) (main_arg3 : FVec F S1x128 .f32) (main_arg4 : FVec F S512x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S327680x128 .f32 := Host.absf main_arg0
  let main_cst : FVec F S_ .f32 := constant S_ .f32 0x7F800000#32
  let main_v1 : FVec F S327680x128 .f32 := broadcastInDim S327680x128 ![] bcast_S_S327680x128 main_cst
  let main_v2 : IVec S327680x128 1 := cmpf .olt main_v0 main_v1
  let main_c : IVec S_ 1 := constantI S_ 1 1#1
  let main_v3 : IVec S_ 1 := (fun x v => Host.reduce IntOp.andi x v reducesTo_S327680x128_S_d0_1 h_S_) main_v2 main_c
  let main_v4 : FVec F S327680x128 .f32 := Host.absf main_arg1
  let main_cst_0 : FVec F S_ .f32 := constant S_ .f32 0x7F800000#32
  let main_v5 : FVec F S327680x128 .f32 := broadcastInDim S327680x128 ![] bcast_S_S327680x128 main_cst_0
  let main_v6 : IVec S327680x128 1 := cmpf .olt main_v4 main_v5
  let main_c_1 : IVec S_ 1 := constantI S_ 1 1#1
  let main_v7 : IVec S_ 1 := (fun x v => Host.reduce IntOp.andi x v reducesTo_S327680x128_S_d0_1 h_S_) main_v6 main_c_1
  let main_v8 : IVec S_ 1 := andi main_v3 main_v7
  let main_v9 : FVec F S327680x128 .f32 := Host.absf main_arg2
  let main_cst_2 : FVec F S_ .f32 := constant S_ .f32 0x7F800000#32
  let main_v10 : FVec F S327680x128 .f32 := broadcastInDim S327680x128 ![] bcast_S_S327680x128 main_cst_2
  let main_v11 : IVec S327680x128 1 := cmpf .olt main_v9 main_v10
  let main_c_3 : IVec S_ 1 := constantI S_ 1 1#1
  let main_v12 : IVec S_ 1 := (fun x v => Host.reduce IntOp.andi x v reducesTo_S327680x128_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_arg6 main_arg7 main_arg8 main_arg9 main_arg10 main_arg11 main_v13 main_v16
-- ==== Kernel.lean ====
abbrev S327680x128 : Shape := ⟨2, ![327680, 128]⟩
abbrev S1x128 : Shape := ⟨2, ![1, 128]⟩
abbrev S512x128 : Shape := ⟨2, ![512, 128]⟩
abbrev S128 : Shape := ⟨1, ![128]⟩
abbrev S128x128 : Shape := ⟨2, ![128, 128]⟩
abbrev S4096x128 : Shape := ⟨2, ![4096, 128]⟩

abbrev nBuf : Space → Nat
  | .hbm => 24
  | .vmem => 20
  | .smem => 0
  | _ => 0

abbrev bufTy : (tb : Table) → Fin (tcTables nBuf tb) → BufTy
  | .hbm, ⟨0, _⟩ => ⟨S327680x128, .f32⟩
  | .hbm, ⟨1, _⟩ => ⟨S327680x128, .f32⟩
  | .hbm, ⟨2, _⟩ => ⟨S327680x128, .f32⟩
  | .hbm, ⟨3, _⟩ => ⟨S1x128, .f32⟩
  | .hbm, ⟨4, _⟩ => ⟨S512x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .bf16⟩
  | .hbm, ⟨14, _⟩ => ⟨S128x128, .f32⟩
  | .hbm, ⟨15, _⟩ => ⟨S128x128, .bf16⟩
  | .hbm, ⟨16, _⟩ => ⟨S128x128, .f32⟩
  | .hbm, ⟨17, _⟩ => ⟨S128x128, .bf16⟩
  | .hbm, ⟨18, _⟩ => ⟨S128x128, .f32⟩
  | .hbm, ⟨19, _⟩ => ⟨S128x128, .bf16⟩
  | .hbm, ⟨20, _⟩ => ⟨S128x128, .bf16⟩
  | .hbm, ⟨21, _⟩ => ⟨S128x128, .bf16⟩
  | .hbm, ⟨22, _⟩ => ⟨S128x128, .bf16⟩
  | .hbm, ⟨23, _⟩ => ⟨S327680x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x128, .f32⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S4096x128, .f32⟩
  | .local _ .vmem, ⟨19, _⟩ => ⟨S4096x128, .f32⟩
  | _, _ => ⟨S327680x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4096x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S512x128_S128x128_0_0 : S512x128.Slices ![0, 0] S128x128
  bitsLt_bf16_f32 : FTy.bits .bf16 < FTy.bits .f32
  slices_S512x128_S128x128_128_0 : S512x128.Slices ![128, 0] S128x128
  slices_S512x128_S128x128_256_0 : S512x128.Slices ![256, 0] S128x128
  slices_S512x128_S128x128_384_0 : S512x128.Slices ![384, 0] S128x128
  inb_S4096x128_S4096x128_0_0 : ∀ a, (![0, 0] : Fin 2 → Nat) a + S4096x128.size a ≤ S4096x128.size a
  h_S4096x128 : 0 < S4096x128.numel
  inb_S1x128_S1x128_0_0 : ∀ a, (![0, 0] : Fin 2 → Nat) a + S1x128.size a ≤ S1x128.size a
  h_S1x128 : 0 < S1x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S4096x128 : S1x128.Broadcasts S4096x128
  inb_S128_S128_0 : ∀ a, (![0] : Fin 1 → Nat) a + S128.size a ≤ S128.size a
  h_S128 : 0 < S128.numel
  shapeCasts_S128_S1x128 : S128.ShapeCasts S1x128
  dot_S4096x128_S128x128_S4096x128_1_0_0_1_n_n_wf : DotDims.WF S4096x128 S128x128 S4096x128 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S327680x128.size a
  hwx0_0 : ∀ i : grid0.Coords, EltTy.bits .f32 = 32 ∨ (Rect.block (s := S327680x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S327680x128.size a
  hwx0_1 : ∀ i : grid0.Coords, EltTy.bits .f32 = 32 ∨ (Rect.block (s := S327680x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S327680x128.size a
  hwx0_2 : ∀ i : grid0.Coords, EltTy.bits .f32 = 32 ∨ (Rect.block (s := S327680x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .bf16 = 32 ∨ (Rect.block (s := S128x128) S128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4096x128.size a ≤ S327680x128.size a
  hwx0_15 : ∀ i : grid0.Coords, EltTy.bits .f32 = 32 ∨ (Rect.block (s := S327680x128) S4096x128.size (cc0_transform_15 i) (hinb0_15 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg5) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg7) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg9) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg11) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v11) S4096x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S327680x128 : Shape := ⟨2, ![327680, 128]⟩
abbrev S1x128 : Shape := ⟨2, ![1, 128]⟩
abbrev S512x128 : Shape := ⟨2, ![512, 128]⟩
abbrev S128 : Shape := ⟨1, ![128]⟩
abbrev S128x128 : Shape := ⟨2, ![128, 128]⟩
abbrev S1x1x1x128 : Shape := ⟨4, ![1, 1, 1, 128]⟩
abbrev S327680x1x1x128 : Shape := ⟨4, ![327680, 1, 1, 128]⟩
abbrev S327680x512 : Shape := ⟨2, ![327680, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S327680x128, .f32⟩
  | .hbm, ⟨1, _⟩ => ⟨S327680x128, .f32⟩
  | .hbm, ⟨2, _⟩ => ⟨S327680x128, .f32⟩
  | .hbm, ⟨3, _⟩ => ⟨S1x128, .f32⟩
  | .hbm, ⟨4, _⟩ => ⟨S512x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x1x1x128, .f32⟩
  | .hbm, ⟨13, _⟩ => ⟨S327680x1x1x128, .f32⟩
  | .hbm, ⟨14, _⟩ => ⟨S327680x128, .f32⟩
  | .hbm, ⟨15, _⟩ => ⟨S327680x512, .f32⟩
  | .hbm, ⟨16, _⟩ => ⟨S327680x128, .f32⟩
  | .hbm, ⟨17, _⟩ => ⟨S1x128, .f32⟩
  | .hbm, ⟨18, _⟩ => ⟨S327680x128, .f32⟩
  | .hbm, ⟨19, _⟩ => ⟨S327680x128, .f32⟩
  | .hbm, ⟨20, _⟩ => ⟨S_, .f32⟩
  | .hbm, ⟨21, _⟩ => ⟨S327680x128, .f32⟩
  | .hbm, ⟨22, _⟩ => ⟨S327680x128, .f32⟩
  | .hbm, ⟨23, _⟩ => ⟨S327680x128, .f32⟩
  | .hbm, ⟨24, _⟩ => ⟨S1x128, .f32⟩
  | .hbm, ⟨25, _⟩ => ⟨S327680x128, .f32⟩
  | .hbm, ⟨26, _⟩ => ⟨S327680x128, .f32⟩
  | .hbm, ⟨27, _⟩ => ⟨S_, .f32⟩
  | .hbm, ⟨28, _⟩ => ⟨S327680x128, .f32⟩
  | .hbm, ⟨29, _⟩ => ⟨S327680x128, .f32⟩
  | .hbm, ⟨30, _⟩ => ⟨S327680x128, .f32⟩
  | .hbm, ⟨31, _⟩ => ⟨S1x128, .f32⟩
  | .hbm, ⟨32, _⟩ => ⟨S327680x128, .f32⟩
  | .hbm, ⟨33, _⟩ => ⟨S327680x128, .f32⟩
  | .hbm, ⟨34, _⟩ => ⟨S_, .f32⟩
  | .hbm, ⟨35, _⟩ => ⟨S327680x128, .f32⟩
  | .hbm, ⟨36, _⟩ => ⟨S327680x128, .f32⟩
  | .hbm, ⟨37, _⟩ => ⟨S327680x128, .f32⟩
  | .hbm, ⟨38, _⟩ => ⟨S1x128, .f32⟩
  | .hbm, ⟨39, _⟩ => ⟨S327680x128, .f32⟩
  | .hbm, ⟨40, _⟩ => ⟨S327680x128, .f32⟩
  | _, _ => ⟨S327680x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call1_cst : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call2_cst : Ref sig .tc := ⟨.hbm, 34, rfl⟩
abbrev main_call2_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]

class Facts₀ : Prop where
  shapeCasts_S1x128_S1x1x1x128 : S1x128.ShapeCasts S1x1x1x128
  bcast_S1x1x1x128_S327680x1x1x128_0_1_2_3 : S1x1x1x128.BroadcastsInDim S327680x1x1x128 (![0, 1, 2, 3] : Fin 4 → Fin S327680x1x1x128.rank)
  shapeCasts_S327680x1x1x128_S327680x128 : S327680x1x1x128.ShapeCasts S327680x128
  concatenates_S327680x128_S327680x128_S327680x128_S327680x128_S327680x512_d1 : Shape.Concatenates [S327680x128, S327680x128, S327680x128, S327680x128] S327680x512 1
  bcast_S128_S1x128_1 : S128.BroadcastsInDim S1x128 (![1] : Fin 1 → Fin S1x128.rank)
  bcast_S1x128_S327680x128_0_1 : S1x128.BroadcastsInDim S327680x128 (![0, 1] : Fin 2 → Fin S327680x128.rank)
  bcast_S_S327680x128 : S_.BroadcastsInDim S327680x128 (![] : Fin 0 → Fin S327680x128.rank)
  dot_S327680x512_S512x128_S327680x128_1_0_0_1_n_n_wf : DotDims.WF S327680x512 S512x128 S327680x128 [1] [0] [0] [1] [] []
  dot_S327680x128_S128x128_S327680x128_1_0_0_1_n_n_wf : DotDims.WF S327680x128 S128x128 S327680x128 [1] [0] [0] [1] [] []

variable [Facts₀]

def dot_S327680x512_S512x128_S327680x128_1_0_0_1_n_n : DotDims S327680x512 S512x128 S327680x128 where
  lhsContracting := [1]
  rhsContracting := [0]
  lhsNonContracting := [0]
  rhsNonContracting := [1]
  lhsBatch := []
  rhsBatch := []
  wf := dot_S327680x512_S512x128_S327680x128_1_0_0_1_n_n_wf
def dot_S327680x128_S128x128_S327680x128_1_0_0_1_n_n : DotDims S327680x128 S128x128 S327680x128 where
  lhsContracting := [1]
  rhsContracting := [0]
  lhsNonContracting := [0]
  rhsNonContracting := [1]
  lhsBatch := []
  rhsBatch := []
  wf := dot_S327680x128_S128x128_S327680x128_1_0_0_1_n_n_wf

class Facts : Prop extends Facts₀ where

variable [Facts]
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.LibRectify.lean ====
/-
  The rectifier beside an affine layer, entry by entry at the extended reals, as a vector unit writes it (the maximum
  with a splat of the zero word) and as host operations write it (the maximum with a rank-0 zero constant repeated
  over the shape): both are `max y 0`-by-the-zero-word at every entry.
-/
import proofs.«163525_j25598005084721_1_alg».proof.Proof.LibDense

noncomputable section
namespace Cert.Lib.Rectify
open Idealize.ShloMosaic
open Idealize.ShloMosaic.ValueIdx
open Cert.Lib.Dense

/-- The rectifier at one entry: the maximum with the f32 zero word's value. -/
def relu1 (y : EReal) : EReal :=
  FloatOps.maximumf (F := Ideal) (φ := .f32) y (Scalar.ofBits .f32 0x00000000#32)

/-- The rectifier over an array of entries. -/
def relu {S : Shape} (Y : S.Idx → EReal) : S.Idx → EReal := fun j => relu1 (Y j)

/-- The vector unit's rectifier: the maximum with a splat of the zero word. -/
theorem relu_vec {S : Shape} (Y : FVec Ideal S .f32) :
    maximumf Y (broadcast S (Scalar.ofBits .f32 0x00000000#32)) = relu Y := rfl

/-- The host's rectifier: the maximum with the rank-0 zero constant repeated over the shape. -/
theorem relu_host {S : Shape} (Y : FVec Ideal S .f32) (e : (⟨0, ![]⟩ : Shape).BroadcastsInDim S (![] : Fin 0 → Fin S.rank)) :
    maximumf Y (broadcastInDim S ![] e (constant ⟨0, ![]⟩ .f32 0x00000000#32)) = relu Y := by
  funext j
  show FloatOps.maximumf (Y j) (broadcastInDim S ![] e (constant (F := Ideal) ⟨0, ![]⟩ .f32 0x00000000#32) j) = _
  rw [splat0_apply]
  rfl

end Cert.Lib.Rectify
-- ==== Proof.LibBlockSum.lean ====
/-
  A sum over n * b consecutive indices is the sum of n consecutive runs of b of them: the law that joins a contraction
  accumulated block by block along the contracted axis with the same contraction done at once. It holds in any
  commutative additive monoid (so on the extended reals with no finiteness assumed), for any number n of blocks and
  any block length b. Three forms: over initial segments of the naturals, over the finite index types with a function
  of the natural position, and for a function of the n * b positions themselves.
-/
import Mathlib.Algebra.BigOperators.Fin
import Mathlib.Algebra.BigOperators.Intervals

open scoped BigOperators

namespace Cert.LibBlockSum

variable {M : Type*} [AddCommMonoid M]

/-- A sum over the first `n * b` naturals, cut into `n` consecutive runs of `b`: run `s` holds the positions
    `b * s + x` for `x < b`. -/
theorem sum_range_mul (g : ℕ → M) (n b : ℕ) :
    ∑ k ∈ Finset.range (n * b), g k = ∑ s ∈ Finset.range n, ∑ x ∈ Finset.range b, g (b * s + x) := by
  induction n with
  | zero => simp
  | succ n ih => rw [Nat.succ_mul, Finset.sum_range_add, ih, Finset.sum_range_succ, Nat.mul_comm b n]

/-- The same with the positions and the positions inside a run as finite types. -/
theorem sum_fin_mul (g : ℕ → M) (n b : ℕ) :
    ∑ k : Fin (n * b), g k.val = ∑ s ∈ Finset.range n, ∑ x : Fin b, g (b * s + x.val) := by
  rw [Fin.sum_univ_eq_sum_range (fun k => g k) (n * b), sum_range_mul]
  exact Finset.sum_congr rfl fun s _ => (Fin.sum_univ_eq_sum_range (fun x => g (b * s + x)) b).symm

/-- The same for a function of the `N = n * b` positions themselves: run `s`'s position `x` is position `b * s + x`
    (the guard is true on every term: `s < n` and `x < b`). -/
theorem sum_fin_blocks {N : ℕ} (n b : ℕ) (hN : N = n * b) (f : Fin N → M) :
    ∑ k, f k = ∑ s ∈ Finset.range n, ∑ x : Fin b, (if h : b * s + x.val < N then f ⟨b * s + x.val, h⟩ else 0) := by
  subst hN
  have e := sum_fin_mul (fun k => if h : k < n * b then f ⟨k, h⟩ else 0) n b
  simp only [Fin.is_lt, dite_true, Fin.eta] at e
  exact e

end Cert.LibBlockSum
-- ==== Proof.EdgeMlp.lean ====
/-
  THE EDGE NETWORK, entry by entry at the extended reals. An edge's input row is its receiver row, its sender row, its
  edge row and the one global row, side by side (4 x 128 = 512 columns). The first layer multiplies that joined row by a
  [512, 128] matrix; written piece by piece it is the sum of four [., 128] x [128, 128] products, one per 128 rows of the
  matrix, the fourth product being the same row for every edge. Three more affine layers follow, a rectifier after each
  layer but the last.

  * `sum_four_runs`: a sum over 512 positions is the sum of its four consecutive runs of 128, added left to right. Only
    associativity and commutativity of addition are used, so it holds at the extended reals with no finiteness.
  * `mix`: the first layer before its rectifier, in the four-product form; `rowsFrom`: 128 consecutive rows of a
    [512, 128] matrix; `affine_joined`: an affine layer over a joined row IS `mix` over its pieces.
  * `net`: the whole network; `result`: the network over the twelve argument arrays; `net_congr`: every layer is row-wise, so the network's entry (r, c) over a block of rows
    is its entry over the whole array at the block's row.
-/
import proofs.«163525_j25598005084721_1_alg».proof.Proof.LibDense
import proofs.«163525_j25598005084721_1_alg».proof.Proof.LibRectify
import proofs.«163525_j25598005084721_1_alg».proof.Proof.LibBlockSum

noncomputable section
namespace Cert.EdgeMlp
open Idealize.ShloMosaic
open Idealize.ShloMosaic.ValueIdx
open Cert.Lib.Dense Cert.Lib.Rectify

/-- An [M, N] array of extended reals. -/
abbrev Mat (M N : Nat) : Type := (⟨2, ![M, N]⟩ : Shape).Idx → EReal

/-- A sum over 512 positions as its four consecutive runs of 128, added left to right. -/
theorem sum_four_runs {A : Type*} [AddCommMonoid A] (f : Fin 512 → A) :
    ∑ k, f k = (((∑ k : Fin 128, f ⟨k.val, by have := k.isLt; omega⟩) + ∑ k : Fin 128, f ⟨128 + k.val, by have := k.isLt; omega⟩)
      + ∑ k : Fin 128, f ⟨256 + k.val, by have := k.isLt; omega⟩) + ∑ k : Fin 128, f ⟨384 + k.val, by have := k.isLt; omega⟩ := by
  rw [Cert.LibBlockSum.sum_fin_blocks 4 128 rfl f]
  simp only [Finset.sum_range_succ, Finset.sum_range_zero, zero_add]
  refine congrArg₂ (· + ·) (congrArg₂ (· + ·) (congrArg₂ (· + ·) ?_ ?_) ?_) ?_ <;>
    refine Finset.sum_congr rfl fun k _ => ?_ <;>
    (have hk := k.isLt; rw [dif_pos (by omega)]; try exact congrArg f (Fin.ext (by simp)))

/-- The first layer before its rectifier, product by product: receiver, sender and edge rows against their 128 rows of
    the matrix, the global row against its 128, then the bias. -/
def mix {M : Nat} (xr xs xe : Mat M 128) (g : Mat 1 128) (wr ws we wg : Mat 128 128) (b : Mat 1 128) : Mat M 128 :=
  fun j => ((((∑ k : Fin 128, xr (ix2 (j 0) k) * wr (ix2 k (j 1))) + ∑ k : Fin 128, xs (ix2 (j 0) k) * ws (ix2 k (j 1)))
      + ∑ k : Fin 128, xe (ix2 (j 0) k) * we (ix2 k (j 1))) + ∑ k : Fin 128, g (ix2 0 k) * wg (ix2 k (j 1))) + b (ix2 0 (j 1))

/-- Rows `o` … `o + 127` of a [512, 128] matrix. -/
def rowsFrom (o : Nat) (ho : o + 128 ≤ 512) (W : Mat 512 128) : Mat 128 128 :=
  fun j => W (ix2 ⟨o + (j 0).val, by have := (j 0).isLt; simp at this; omega⟩ (j 1))

/-- An affine layer over a row whose 512 columns are four runs of 128 (the last run the same for every row) is the
    four-product form over the runs and the matrix's four blocks of 128 rows. -/
theorem affine_joined {M : Nat} (X : Mat M 512) (W : Mat 512 128) (B : Mat 1 128) (xr xs xe : Mat M 128) (g : Mat 1 128)
    (j : (⟨2, ![M, 128]⟩ : Shape).Idx)
    (h0 : ∀ k : Fin 128, X (ix2 (j 0) ⟨k.val, by have := k.isLt; omega⟩) = xr (ix2 (j 0) k))
    (h1 : ∀ k : Fin 128, X (ix2 (j 0) ⟨128 + k.val, by have := k.isLt; omega⟩) = xs (ix2 (j 0) k))
    (h2 : ∀ k : Fin 128, X (ix2 (j 0) ⟨256 + k.val, by have := k.isLt; omega⟩) = xe (ix2 (j 0) k))
    (h3 : ∀ k : Fin 128, X (ix2 (j 0) ⟨384 + k.val, by have := k.isLt; omega⟩) = g (ix2 0 k)) :
    affine X W B j = mix xr xs xe g (rowsFrom 0 (by decide) W) (rowsFrom 128 (by decide) W) (rowsFrom 256 (by decide) W)
      (rowsFrom 384 (by decide) W) B j := by
  unfold affine mix
  rw [sum_four_runs]
  refine congrArg (· + _) ?_
  refine congrArg₂ (· + ·) (congrArg₂ (· + ·) (congrArg₂ (· + ·) ?_ ?_) ?_) ?_ <;>
    refine Finset.sum_congr rfl fun k _ => ?_
  · rw [h0 k]; refine congrArg (_ * ·) ?_; unfold rowsFrom; exact congrArg W (funext fun a => Fin.ext (by
      match a with
      | ⟨0, _⟩ => simp
      | ⟨1, _⟩ => rfl))
  · rw [h1 k]; rfl
  · rw [h2 k]; rfl
  · rw [h3 k]; rfl

/-- The network: the first layer, then three affine layers, a rectifier after each layer but the last. -/
def net {M : Nat} (xr xs xe : Mat M 128) (g : Mat 1 128) (wr ws we wg : Mat 128 128) (b1 : Mat 1 128)
    (w2 : Mat 128 128) (b2 : Mat 1 128) (w3 : Mat 128 128) (b3 : Mat 1 128) (w4 : Mat 128 128) (b4 : Mat 1 128) : Mat M 128 :=
  affine (relu (affine (relu (affine (relu (mix xr xs xe g wr ws we wg b1)) w2 b2)) w3 b3)) w4 b4

/-- One rectified layer keeps row agreement: if row `p` of `Y` is row `q` of `Z`, so it is after the layer. -/
theorem layer_rows {Mb M K N : Nat} (Y : Mat Mb K) (Z : Mat M K) (w : Mat K N) (b : Mat 1 N) (p : Fin Mb) (q : Fin M)
    (h : ∀ k : Fin K, Y (ix2 p k) = Z (ix2 q k)) (c : Fin N) :
    affine Y w b (ix2 p c) = affine Z w b (ix2 q c) :=
  affine_congr Y Z w w b b (ix2 p c) (ix2 q c) h (fun _ => rfl) rfl

/-- The network is row-wise: over a block whose row `p` is row `q` of the whole arrays, entry (p, c) of the block's
    network is entry (q, c) of the whole network. -/
theorem net_congr {Mb M : Nat} (xr xs xe : Mat Mb 128) (XR XS XE : Mat M 128) (g : Mat 1 128) (wr ws we wg : Mat 128 128)
    (b1 : Mat 1 128) (w2 : Mat 128 128) (b2 : Mat 1 128) (w3 : Mat 128 128) (b3 : Mat 1 128) (w4 : Mat 128 128) (b4 : Mat 1 128)
    (p : Fin Mb) (q : Fin M)
    (hr : ∀ k : Fin 128, xr (ix2 p k) = XR (ix2 q k)) (hs : ∀ k : Fin 128, xs (ix2 p k) = XS (ix2 q k))
    (he : ∀ k : Fin 128, xe (ix2 p k) = XE (ix2 q k)) (c : Fin 128) :
    net xr xs xe g wr ws we wg b1 w2 b2 w3 b3 w4 b4 (ix2 p c) = net XR XS XE g wr ws we wg b1 w2 b2 w3 b3 w4 b4 (ix2 q c) := by
  unfold net
  refine layer_rows _ _ w4 b4 p q (fun k => ?_) c
  refine congrArg relu1 (layer_rows _ _ w3 b3 p q (fun k => ?_) k)
  refine congrArg relu1 (layer_rows _ _ w2 b2 p q (fun k => ?_) k)
  refine congrArg relu1 ?_
  show ((((∑ k' : Fin 128, xr (ix2 p k') * wr (ix2 k' k)) + ∑ k' : Fin 128, xs (ix2 p k') * ws (ix2 k' k))
      + ∑ k' : Fin 128, xe (ix2 p k') * we (ix2 k' k)) + ∑ k' : Fin 128, g (ix2 0 k') * wg (ix2 k' k)) + b1 (ix2 0 k)
    = ((((∑ k' : Fin 128, XR (ix2 q k') * wr (ix2 k' k)) + ∑ k' : Fin 128, XS (ix2 q k') * ws (ix2 k' k))
      + ∑ k' : Fin 128, XE (ix2 q k') * we (ix2 k' k)) + ∑ k' : Fin 128, g (ix2 0 k') * wg (ix2 k' k)) + b1 (ix2 0 k)
  simp only [hr, hs, he]

/-- The result array [327680, 128] as one function of the twelve argument arrays: the network over the three edge-row
    arrays and the global row, the first matrix cut into its four blocks of 128 rows, each bias vector as a row. -/
def result (a0 a1 a2 : Mat 327680 128) (a3 : Mat 1 128) (a4 : Mat 512 128) (a5 : (⟨1, ![128]⟩ : Shape).Idx → EReal)
    (a6 : Mat 128 128) (a7 : (⟨1, ![128]⟩ : Shape).Idx → EReal) (a8 : Mat 128 128) (a9 : (⟨1, ![128]⟩ : Shape).Idx → EReal)
    (a10 : Mat 128 128) (a11 : (⟨1, ![128]⟩ : Shape).Idx → EReal) : Mat 327680 128 :=
  net a0 a1 a2 a3 (rowsFrom 0 (by decide) a4) (rowsFrom 128 (by decide) a4) (rowsFrom 256 (by decide) a4)
    (rowsFrom 384 (by decide) a4) (biasRow a5) a6 (biasRow a7) a8 (biasRow a9) a10 (biasRow a11)

end Cert.EdgeMlp
-- ==== Proof.KernelBlock.lean ====
/-
  WHAT THE KERNEL BODY WRITES AT ONE GRID POINT, as the edge network over the point's blocks. The body multiplies the
  receiver, sender and edge blocks [4096, 128] and the global row [1, 128] by their [128, 128] pieces of the first matrix
  (each product into a zero accumulator), adds the four products (the global one repeated down the rows) and the bias
  row, rectifies, and runs three more products with bias, rectifying after the first two. At the extended reals a
  change of float format is the identity, a product into a zero accumulator is the plain sum over the contracted
  coordinate, and a row repeated down a block reads its own column: so the stored block is `net` of the loaded blocks.
-/
import proofs.«163525_j25598005084721_1_alg».proof.Proof.Gen.KernelIdeal.Frame
import proofs.«163525_j25598005084721_1_alg».proof.Proof.EdgeMlp
import Idealize.ShloMosaic.Lib.Pipeline.Value
import Idealize.ShloMosaic.PureOps.Ideal.Laws

noncomputable section
namespace Cert.KernelIdeal.Block
open Idealize.ShloMosaic
open Idealize.ShloMosaic.ValueIdx
open Cert.KernelIdeal Cert.KernelIdeal.Gen Cert.EdgeMlp Cert.Lib.Dense Cert.Lib.Rectify

/-- A product of an [M, K] block with a [K, N] matrix into a zero accumulator, at entry (r, c): the sum over k of
    x (r, k) · w (k, c). -/
theorem product_entry {M K N : Nat} {φ₁ φ₂ : FTy} (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (sw : (⟨2, ![K, N]⟩ : Shape).ShapeCasts ⟨2, ![K, N]⟩) (j : (⟨2, ![M, N]⟩ : Shape).Idx) :
    matmul d none x (shapeCast ⟨2, ![K, N]⟩ w sw) (constant ⟨2, ![M, N]⟩ .f32 0x00000000#32) j
      = ∑ k : Fin K, x (ix2 (j 0) k) * w (ix2 k (j 1)) := by
  subst hd
  rw [shapeCast_self]
  show FloatOps.matmul (DotDims.plain M K N) none x w (constant _ .f32 0x00000000#32) j = _
  rw [Ideal.matmul_constant_zero_apply, ← Equiv.sum_comp (ce M K N).symm]
  exact Finset.sum_congr rfl fun k _ => by rw [plain_lhsIdx, plain_rhsIdx]

/-- A [1, N] row repeated down M rows reads, at entry (r, c), the row's column c. -/
theorem row_entry {M N : Nat} (v : (⟨2, ![1, N]⟩ : Shape).Idx → EReal) (bt : (⟨2, ![1, N]⟩ : Shape).Broadcasts ⟨2, ![M, N]⟩)
    (j : (⟨2, ![M, N]⟩ : Shape).Idx) : broadcastTo ⟨2, ![M, N]⟩ v bt j = v (ix2 0 (j 1)) := by
  refine broadcastTo_apply v bt j (ix2 0 (j 1)) fun a => ?_
  match a with
  | ⟨0, _⟩ => simp
  | ⟨1, _⟩ =>
    show (j 1).val = if N = 1 then 0 else (j 1).val
    split_ifs with h
    · have := (j 1).isLt; simp at this; omega
    · rfl

/-- One affine layer as the vector unit writes it — a product into a zero accumulator plus the bias vector made a row
    and repeated down the block — is `affine` over the bias row. -/
theorem dense_vec {M K N : Nat} {φ₁ φ₂ : FTy} (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (sw : (⟨2, ![K, N]⟩ : Shape).ShapeCasts ⟨2, ![K, N]⟩) (b : FVec Ideal ⟨1, ![N]⟩ .f32)
    (sb : (⟨1, ![N]⟩ : Shape).ShapeCasts ⟨2, ![1, N]⟩) (bt : (⟨2, ![1, N]⟩ : Shape).Broadcasts ⟨2, ![M, N]⟩) :
    addf (matmul d none x (shapeCast ⟨2, ![K, N]⟩ w sw) (constant ⟨2, ![M, N]⟩ .f32 0x00000000#32))
        (broadcastTo ⟨2, ![M, N]⟩ (shapeCast ⟨2, ![1, N]⟩ b sb) bt) = affine x w (biasRow b) := by
  funext j
  show matmul d none x (shapeCast ⟨2, ![K, N]⟩ w sw) (constant ⟨2, ![M, N]⟩ .f32 0x00000000#32) j
      + broadcastTo ⟨2, ![M, N]⟩ (shapeCast ⟨2, ![1, N]⟩ b sb) bt j = _
  rw [product_entry d hd, shapeCast_row, row_entry]
  rfl

/-- The first layer as the vector unit writes it: three block products and the global row's product repeated down the
    block, added left to right, then the bias row. -/
theorem mix_vec {M : Nat} {φ₁ φ₂ φ₃ : FTy} (d : DotDims ⟨2, ![M, 128]⟩ ⟨2, ![128, 128]⟩ ⟨2, ![M, 128]⟩)
    (hd : d = DotDims.plain M 128 128) (d1 : DotDims ⟨2, ![1, 128]⟩ ⟨2, ![128, 128]⟩ ⟨2, ![1, 128]⟩)
    (hd1 : d1 = DotDims.plain 1 128 128) (xr xs xe : FVec Ideal ⟨2, ![M, 128]⟩ φ₁) (g : FVec Ideal ⟨2, ![1, 128]⟩ φ₃)
    (wr ws we wg : FVec Ideal ⟨2, ![128, 128]⟩ φ₂)
    (sw : (⟨2, ![128, 128]⟩ : Shape).ShapeCasts ⟨2, ![128, 128]⟩) (b : FVec Ideal ⟨1, ![128]⟩ .f32)
    (sb : (⟨1, ![128]⟩ : Shape).ShapeCasts ⟨2, ![1, 128]⟩) (bt : (⟨2, ![1, 128]⟩ : Shape).Broadcasts ⟨2, ![M, 128]⟩) :
    addf (addf (addf (addf (matmul d none xr (shapeCast ⟨2, ![128, 128]⟩ wr sw) (constant ⟨2, ![M, 128]⟩ .f32 0x00000000#32))
            (matmul d none xs (shapeCast ⟨2, ![128, 128]⟩ ws sw) (constant ⟨2, ![M, 128]⟩ .f32 0x00000000#32)))
          (matmul d none xe (shapeCast ⟨2, ![128, 128]⟩ we sw) (constant ⟨2, ![M, 128]⟩ .f32 0x00000000#32)))
        (broadcastTo ⟨2, ![M, 128]⟩
          (matmul d1 none g (shapeCast ⟨2, ![128, 128]⟩ wg sw) (constant ⟨2, ![1, 128]⟩ .f32 0x00000000#32)) bt))
      (broadcastTo ⟨2, ![M, 128]⟩ (shapeCast ⟨2, ![1, 128]⟩ b sb) bt)
    = mix xr xs xe g wr ws we wg (biasRow b) := by
  funext j
  show (((matmul d none xr (shapeCast ⟨2, ![128, 128]⟩ wr sw) (constant ⟨2, ![M, 128]⟩ .f32 0x00000000#32) j
            + matmul d none xs (shapeCast ⟨2, ![128, 128]⟩ ws sw) (constant ⟨2, ![M, 128]⟩ .f32 0x00000000#32) j)
          + matmul d none xe (shapeCast ⟨2, ![128, 128]⟩ we sw) (constant ⟨2, ![M, 128]⟩ .f32 0x00000000#32) j)
        + broadcastTo ⟨2, ![M, 128]⟩
          (matmul d1 none g (shapeCast ⟨2, ![128, 128]⟩ wg sw) (constant ⟨2, ![1, 128]⟩ .f32 0x00000000#32)) bt j)
      + broadcastTo ⟨2, ![M, 128]⟩ (shapeCast ⟨2, ![1, 128]⟩ b sb) bt j = _
  rw [product_entry d hd, product_entry d hd, product_entry d hd, row_entry, product_entry d1 hd1, shapeCast_row, row_entry]
  rfl

/-- The value the body stores, from the values it loads: the edge network over the loaded blocks. -/
theorem pay_eq (v0 v2 v4 : Vec Ideal S4096x128 .f32) (v6 : Vec Ideal S1x128 .f32) (v8 v11 v15 v19 : Vec Ideal S128x128 .bf16)
    (v24 : Vec Ideal S128 .f32) (v31 : Vec Ideal S128x128 .bf16) (v34 : Vec Ideal S128 .f32) (v41 : Vec Ideal S128x128 .bf16)
    (v44 : Vec Ideal S128 .f32) (v51 : Vec Ideal S128x128 .bf16) (v54 : Vec Ideal S128 .f32) :
    k0_pay1 (k0_pay2 v0 v2 v4 v6 v8 v11 v15 v19 v24 v31) v34 v41 v44 v51 v54
      = net v0 v2 v4 v6 v8 v11 v15 v19 (biasRow v24) v31 (biasRow v34) v41 (biasRow v44) v51 (biasRow v54) := by
  unfold net
  rw [← mix_vec dot_S4096x128_S128x128_S4096x128_1_0_0_1_n_n rfl dot_S1x128_S128x128_S1x128_1_0_0_1_n_n rfl v0 v2 v4 v6 v8 v11 v15 v19
      shapeCasts_S128x128_S128x128 v24 shapeCasts_S128_S1x128 broadcasts_S1x128_S4096x128,
    ← dense_vec dot_S4096x128_S128x128_S4096x128_1_0_0_1_n_n rfl _ v31 shapeCasts_S128x128_S128x128 v34 shapeCasts_S128_S1x128 broadcasts_S1x128_S4096x128,
    ← dense_vec dot_S4096x128_S128x128_S4096x128_1_0_0_1_n_n rfl _ v41 shapeCasts_S128x128_S128x128 v44 shapeCasts_S128_S1x128 broadcasts_S1x128_S4096x128,
    ← dense_vec dot_S4096x128_S128x128_S4096x128_1_0_0_1_n_n rfl _ v51 shapeCasts_S128x128_S128x128 v54 shapeCasts_S128_S1x128 broadcasts_S1x128_S4096x128]
  rfl

theorem hz2 : (![0, 0] : Fin 2 → Nat) = fun _ => 0 := funext fun a => by fin_cases a <;> rfl
theorem hz1 : (![0] : Fin 1 → Nat) = fun _ => 0 := funext fun a => by fin_cases a; rfl

/-- What the output's staging buffer holds after the body, from the input windows' blocks: the edge network over them
    (every load and the one store go through the whole buffer). -/
theorem out_eq (x0 x1 x2 : Vec Ideal S4096x128 .f32) (x3 : Vec Ideal S1x128 .f32) (x4 x5 x6 x7 x8 x9 x10 : Vec Ideal S128x128 .bf16)
    (x11 x12 x13 x14 : Vec Ideal S128 .f32) :
    out0_15 x0 x1 x2 x3 x4 x5 x6 x7 x8 x9 x10 x11 x12 x13 x14
      = net x0 x1 x2 x3 x4 x5 x6 x7 (biasRow x11) x8 (biasRow x12) x9 (biasRow x13) x10 (biasRow x14) := by
  unfold out0_15
  rw [View.canon_unit_zero hz2]
  simp only [View.ld_unit_zero (S := S4096x128) hz2, View.ld_unit_zero (S := S1x128) hz2, View.ld_unit_zero (S := S128x128) hz2,
    View.ld_unit_zero (S := S128) hz1]
  exact pay_eq x0 x1 x2 x3 x4 x5 x6 x7 x11 x8 x12 x9 x13 x10 x14

end Cert.KernelIdeal.Block
-- ==== Proof.KernelArray.lean ====
/-
  THE KERNEL'S RESULT ARRAY AS ONE FUNCTION OF THE ARGUMENTS. The grid has 80 points; point t stages rows
  4096·t … 4096·t + 4095 of the receiver, sender and edge arrays, the whole of every other operand (the global row, the
  seven [128, 128] matrices, the four bias vectors), and writes back rows 4096·t … 4096·t + 4095 of the result. The four
  first-layer matrices the body reads are rows 0–127, 128–255, 256–383 and 384–511 of the [512, 128] argument (a change of
  float format being the identity at the extended reals), the other three are the arguments themselves. Since the network
  is row-wise, what point t writes back is block t of `result` of the arguments; the 80 blocks tile the array, so the
  array ends holding `result`.
-/
import proofs.«163525_j25598005084721_1_alg».proof.Proof.Gen.KernelIdeal.Value
import proofs.«163525_j25598005084721_1_alg».proof.Proof.KernelBlock
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Whole

open Cert.KernelIdeal Cert.KernelIdeal.Gen Cert.KernelIdeal.Value Cert.EdgeMlp Cert.Lib.Dense

variable (m : (ℓ : Loc nD τ sig) → Buf (Elt Ideal) ℓ) (ρ : Dev nD → PrngReg)

/-- The printed index maps over the grid: the three edge-row windows and the output move one block of rows per point;
    every other window stays on its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 1) = 0 ∧ win0_12.index t (0 : Fin 1) = 0
    ∧ win0_13.index t (0 : Fin 1) = 0 ∧ win0_14.index t (0 : Fin 1) = 0 :=
  (by decide +kernel : ∀ t : Fin grid0.N, _)

/-- Row p of point t's block of rows, as a row of the [327680, 128] arrays. -/
def rowOf (t : Fin cfg0.N) (p : Fin 4096) : Fin 327680 :=
  ⟨4096 * t.val + p.val, by have ht : t.val < 80 := lt_of_lt_of_eq t.isLt N_0
                            have := p.isLt; omega⟩

/-! ## What the region finds in the arrays the host operations wrote -/

/-- Rows o … o + 127 of the [512, 128] argument, sliced out and changed of format, are `rowsFrom o` of it. -/
theorem slice_rows (o : Nat) (ho : o + 128 ≤ 512) (A : FVec Ideal S512x128 .f32) (hs : S512x128.Slices ![o, 0] S128x128) :
    (truncf (F := Ideal) .bf16 (extractStridedSlice S128x128 ![o, 0] A hs) bitsLt_bf16_f32 : S128x128.Idx → EReal)
      = rowsFrom o ho A := by
  funext j
  show extractStridedSlice S128x128 ![o, 0] A hs j = _
  refine extractStridedSlice_apply _ _ _ j _ fun a => ?_
  match a with
  | ⟨0, _⟩ => rfl
  | ⟨1, _⟩ => exact (Nat.zero_add _).symm

theorem V_main_v1 (c : Dev nD) : V m c main_v1 = rowsFrom 0 (by decide) (m ((c : Thread nD τ).loc main_arg4)) := by
  refine Eq.trans ?_ (slice_rows 0 (by decide) (m ((c : Thread nD τ).loc main_arg4)) slices_S512x128_S128x128_0_0)
  dsimp only [V, hostOps0]; after_results

theorem V_main_v3 (c : Dev nD) : V m c main_v3 = rowsFrom 128 (by decide) (m ((c : Thread nD τ).loc main_arg4)) := by
  refine Eq.trans ?_ (slice_rows 128 (by decide) (m ((c : Thread nD τ).loc main_arg4)) slices_S512x128_S128x128_128_0)
  dsimp only [V, hostOps0]; after_results

theorem V_main_v5 (c : Dev nD) : V m c main_v5 = rowsFrom 256 (by decide) (m ((c : Thread nD τ).loc main_arg4)) := by
  refine Eq.trans ?_ (slice_rows 256 (by decide) (m ((c : Thread nD τ).loc main_arg4)) slices_S512x128_S128x128_256_0)
  dsimp only [V, hostOps0]; after_results

theorem V_main_v7 (c : Dev nD) : V m c main_v7 = rowsFrom 384 (by decide) (m ((c : Thread nD τ).loc main_arg4)) := by
  refine Eq.trans ?_ (slice_rows 384 (by decide) (m ((c : Thread nD τ).loc main_arg4)) slices_S512x128_S128x128_384_0)
  dsimp only [V, hostOps0]; after_results

/-- The later layers' matrices are the arguments, changed of format only. -/
theorem V_main_v8 (c : Dev nD) : V m c main_v8 = m ((c : Thread nD τ).loc main_arg6) := by
  show V m c main_v8 = (truncf (F := Ideal) .bf16 (m ((c : Thread nD τ).loc main_arg6)) bitsLt_bf16_f32 : S128x128.Idx → EReal)
  dsimp only [V, hostOps0]; after_results

theorem V_main_v9 (c : Dev nD) : V m c main_v9 = m ((c : Thread nD τ).loc main_arg8) := by
  show V m c main_v9 = (truncf (F := Ideal) .bf16 (m ((c : Thread nD τ).loc main_arg8)) bitsLt_bf16_f32 : S128x128.Idx → EReal)
  dsimp only [V, hostOps0]; after_results

theorem V_main_v10 (c : Dev nD) : V m c main_v10 = m ((c : Thread nD τ).loc main_arg10) := by
  show V m c main_v10 = (truncf (F := Ideal) .bf16 (m ((c : Thread nD τ).loc main_arg10)) bitsLt_bf16_f32 : S128x128.Idx → EReal)
  dsimp only [V, hostOps0]; after_results

/-! ## The windows' blocks as rows of their arrays -/

/-- Row p of the receiver window's block at point t is row 4096·t + p of the receiver array. -/
theorem iblk0_row (c : Dev nD) (t : Fin cfg0.N) (p : Fin 4096) (k : Fin 128) :
    (iblk m c 0 t : S4096x128.Idx → EReal) (ix2 p k) = (m ((c : Thread nD τ).loc main_arg0) : S327680x128.Idx → EReal) (ix2 (rowOf t p) k) := by
  show V m c main_arg0 (((cfg0.win 0).blk t).view.emb (ix2 p k)) = _
  rw [V_main_arg0]
  refine congrArg _ (funext fun a => Fin.ext ?_)
  have e := idx_facts t
  match a with
  | ⟨0, _⟩ => show win0_0.index t (0 : Fin 2) * 4096 + 1 * p.val = 4096 * t.val + p.val; omega
  | ⟨1, _⟩ => show win0_0.index t (1 : Fin 2) * 128 + 1 * k.val = k.val; omega

/-- The same for the sender window. -/
theorem iblk1_row (c : Dev nD) (t : Fin cfg0.N) (p : Fin 4096) (k : Fin 128) :
    (iblk m c 1 t : S4096x128.Idx → EReal) (ix2 p k) = (m ((c : Thread nD τ).loc main_arg1) : S327680x128.Idx → EReal) (ix2 (rowOf t p) k) := by
  show V m c main_arg1 (((cfg0.win 1).blk t).view.emb (ix2 p k)) = _
  rw [V_main_arg1]
  refine congrArg _ (funext fun a => Fin.ext ?_)
  have e := idx_facts t
  match a with
  | ⟨0, _⟩ => show win0_1.index t (0 : Fin 2) * 4096 + 1 * p.val = 4096 * t.val + p.val; omega
  | ⟨1, _⟩ => show win0_1.index t (1 : Fin 2) * 128 + 1 * k.val = k.val; omega

/-- The same for the edge window. -/
theorem iblk2_row (c : Dev nD) (t : Fin cfg0.N) (p : Fin 4096) (k : Fin 128) :
    (iblk m c 2 t : S4096x128.Idx → EReal) (ix2 p k) = (m ((c : Thread nD τ).loc main_arg2) : S327680x128.Idx → EReal) (ix2 (rowOf t p) k) := by
  show V m c main_arg2 (((cfg0.win 2).blk t).view.emb (ix2 p k)) = _
  rw [V_main_arg2]
  refine congrArg _ (funext fun a => Fin.ext ?_)
  have e := idx_facts t
  match a with
  | ⟨0, _⟩ => show win0_2.index t (0 : Fin 2) * 4096 + 1 * p.val = 4096 * t.val + p.val; omega
  | ⟨1, _⟩ => show win0_2.index t (1 : Fin 2) * 128 + 1 * k.val = k.val; omega

/-! Every other input window stays on its one block, at index zero on every axis, so the block's coordinate on each
    axis is the array's (0 · size + 1 · x = x) and the block IS the array. The two tactics below say that once for a
    rank-2 window (sizes n0, n1) and once for a rank-1 window of 128 entries, given the window, its array and the
    decided index facts `e` at the point. -/

set_option hygiene false in
local macro "one_block2" w:ident r:ident n0:num n1:num : tactic => `(tactic|
  (funext x
   show V m c $r ((Pipeline.Window.blk $w t).view.emb x) = V m c $r x
   refine congrArg _ (funext fun a => Fin.ext ?_)
   have e := idx_facts t
   match a with
   | ⟨0, _⟩ => (show Pipeline.Window.index $w t (0 : Fin 2) * $n0 + 1 * (x 0).val = (x 0).val; omega)
   | ⟨1, _⟩ => (show Pipeline.Window.index $w t (1 : Fin 2) * $n1 + 1 * (x 1).val = (x 1).val; omega)))

set_option hygiene false in
local macro "one_block1" w:ident r:ident : tactic => `(tactic|
  (funext x
   show V m c $r ((Pipeline.Window.blk $w t).view.emb x) = V m c $r x
   refine congrArg _ (funext fun a => Fin.ext ?_)
   have e := idx_facts t
   match a with
   | ⟨0, _⟩ => (show Pipeline.Window.index $w t (0 : Fin 1) * 128 + 1 * (x 0).val = (x 0).val; omega)))

theorem iblk3_eq (c : Dev nD) (t : Fin cfg0.N) : (iblk m c 3 t : S1x128.Idx → EReal) = V m c main_arg3 := by
  one_block2 win0_3 main_arg3 1 128
theorem iblk4_eq (c : Dev nD) (t : Fin cfg0.N) : (iblk m c 4 t : S128x128.Idx → EReal) = V m c main_v1 := by
  one_block2 win0_4 main_v1 128 128
theorem iblk5_eq (c : Dev nD) (t : Fin cfg0.N) : (iblk m c 5 t : S128x128.Idx → EReal) = V m c main_v3 := by
  one_block2 win0_5 main_v3 128 128
theorem iblk6_eq (c : Dev nD) (t : Fin cfg0.N) : (iblk m c 6 t : S128x128.Idx → EReal) = V m c main_v5 := by
  one_block2 win0_6 main_v5 128 128
theorem iblk7_eq (c : Dev nD) (t : Fin cfg0.N) : (iblk m c 7 t : S128x128.Idx → EReal) = V m c main_v7 := by
  one_block2 win0_7 main_v7 128 128
theorem iblk8_eq (c : Dev nD) (t : Fin cfg0.N) : (iblk m c 8 t : S128x128.Idx → EReal) = V m c main_v8 := by
  one_block2 win0_8 main_v8 128 128
theorem iblk9_eq (c : Dev nD) (t : Fin cfg0.N) : (iblk m c 9 t : S128x128.Idx → EReal) = V m c main_v9 := by
  one_block2 win0_9 main_v9 128 128
theorem iblk10_eq (c : Dev nD) (t : Fin cfg0.N) : (iblk m c 10 t : S128x128.Idx → EReal) = V m c main_v10 := by
  one_block2 win0_10 main_v10 128 128
theorem iblk11_eq (c : Dev nD) (t : Fin cfg0.N) : (iblk m c 11 t : S128.Idx → EReal) = V m c main_arg5 := by
  one_block1 win0_11 main_arg5
theorem iblk12_eq (c : Dev nD) (t : Fin cfg0.N) : (iblk m c 12 t : S128.Idx → EReal) = V m c main_arg7 := by
  one_block1 win0_12 main_arg7
theorem iblk13_eq (c : Dev nD) (t : Fin cfg0.N) : (iblk m c 13 t : S128.Idx → EReal) = V m c main_arg9 := by
  one_block1 win0_13 main_arg9
theorem iblk14_eq (c : Dev nD) (t : Fin cfg0.N) : (iblk m c 14 t : S128.Idx → EReal) = V m c main_arg11 := by
  one_block1 win0_14 main_arg11

/-! ## The result array -/

/-- `result` of the argument arrays as launched. -/
abbrev G (c : Dev nD) : S327680x128.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The output block's index (p, q) at point t is the array's (4096·t + p, q). -/
theorem emb_out (t : Fin cfg0.N) (p : Fin 4096) (q : Fin 128) :
    ((cfg0.win 15).blk t).view.emb (ix2 p q) = (ix2 (rowOf t p) q : S327680x128.Idx) := by
  funext a
  apply Fin.ext
  have e := idx_facts t
  match a with
  | ⟨0, _⟩ => show win0_15.index t (0 : Fin 2) * 4096 + 1 * p.val = 4096 * t.val + p.val; omega
  | ⟨1, _⟩ => show win0_15.index t (1 : Fin 2) * 128 + 1 * q.val = q.val; omega

/-- WHAT POINT t WRITES BACK is block t of `G`. -/
theorem flushed_eq (c : Dev nD) (t : Fin cfg0.N) :
    (dats m 0 c).flushed 15 t = ((cfg0.win 15).blk t).view.read (Elt Ideal) (G m c) := by
  rw [Value.flushed15, Block.out_eq, iblk3_eq, iblk4_eq, iblk5_eq, iblk6_eq, iblk7_eq, iblk8_eq, iblk9_eq, iblk10_eq,
    iblk11_eq, iblk12_eq, iblk13_eq, iblk14_eq, V_main_arg3, V_main_v1, V_main_v3, V_main_v5, V_main_v7, V_main_v8, V_main_v9,
    V_main_v10, V_main_arg5, V_main_arg7, V_main_arg9, V_main_arg11]
  funext y
  obtain ⟨p, q, rfl⟩ : ∃ (p : Fin 4096) (q : Fin 128), y = ix2 p q := ⟨y 0, y 1, eq_ix2 y⟩
  show net (iblk m c 0 t) (iblk m c 1 t) (iblk m c 2 t) _ _ _ _ _ _ _ _ _ _ _ _ (ix2 p q)
    = G m c (((cfg0.win 15).blk t).view.emb (ix2 p q))
  rw [emb_out]
  exact net_congr _ _ _ _ _ _ _ _ _ _ _ _ _ _ _ _ _ _ p (rowOf t p) (iblk0_row m c t p) (iblk1_row m c t p) (iblk2_row m c t p) q

/-- An index of the array is in point t's block iff each coordinate is in the block's range on its axis. -/
theorem mem_blk (t : Fin cfg0.N) (i : S327680x128.Idx) :
    i ∈ ((cfg0.win 15).blk t).view.set ↔ ∀ a : Fin 2, win0_15.index t a * S4096x128.size a ≤ (i a).val ∧ (i a).val < win0_15.index t a * S4096x128.size a + S4096x128.size a := by
  show i ∈ ((View.whole main_v11).slice (win0_15.rect t)).set ↔ _
  rw [View.set_slice_whole, Rect.mem_set_unit]
  exact Iff.rfl

/-- Every index of the array is in the block of the point its row falls in: row r is in block r / 4096. -/
theorem covered (i : S327680x128.Idx) :
    ∃ t : Fin cfg0.N, (cfg0.win 15).flush t = true ∧ i ∈ ((cfg0.win 15).blk t).view.set := by
  have h0 : (i 0).val < 327680 := (i 0).isLt
  have h1 : (i 1).val < 128 := (i 1).isLt
  have hN : cfg0.N = 80 := N_0
  obtain ⟨t, ht⟩ : ∃ t : Fin cfg0.N, t.val = (i 0).val / 4096 := ⟨⟨(i 0).val / 4096, by rw [hN]; omega⟩, rfl⟩
  refine ⟨t, flush0_15 t, ?_⟩
  rw [mem_blk]
  have e := idx_facts t
  intro a
  match a with
  | ⟨0, _⟩ =>
    show win0_15.index t (0 : Fin 2) * 4096 ≤ (i 0).val ∧ (i 0).val < win0_15.index t (0 : Fin 2) * 4096 + 4096
    omega
  | ⟨1, _⟩ =>
    show win0_15.index t (1 : Fin 2) * 128 ≤ (i 1).val ∧ (i 1).val < win0_15.index t (1 : Fin 2) * 128 + 128
    omega

/-- THE ARRAY after the run is `G`. -/
theorem final (c : Dev nD) : (dats m 0 c).arrAt 15 cfg0.N = G m c :=
  (dats m 0 c).arrAt_eq_of_cover 15 (G m c) (fun t _ => flushed_eq m c t) covered

/-- The kernel's run: the result array ends at `G`, the arguments unchanged. -/
theorem run : θ_run defs (onTc (τ := τ) (main (F := Ideal))) ⟨m, fun _ => 0, ρ⟩ fun r => ∀ c : Dev nD,
      r.2.mem ((c : Thread nD τ).loc main_v11) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final m c), (h c).2⟩) (Value.run_blocks m ρ)

end Cert.KernelIdeal.Whole

end
-- ==== Proof.RefValue.lean ====
/-
  THE REFERENCE'S RESULT IS `result` OF ITS ARGUMENTS. The reference repeats the global row down all 327680 edges, joins
  the receiver, sender, edge and repeated-global arrays side by side into a [327680, 512] array, and runs four affine
  layers on the host, a rectifier (the maximum with a zero constant) after the first three. Column 0–127 of the joined
  array is the receiver's, 128–255 the sender's, 256–383 the edge's, 384–511 the global row's whatever the edge; so the
  first layer is the four-product form `mix` (`affine_joined`), and the rest is the network layer by layer.
-/
import proofs.«163525_j25598005084721_1_alg».proof.Proof.Gen.ReferenceIdeal.Read
import proofs.«163525_j25598005084721_1_alg».proof.Proof.EdgeMlp
import Idealize.ShloMosaic.Lib.Pipeline.Value
import Idealize.ShloMosaic.Lib.ValueIdx

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.EdgeMlp Cert.Lib.Dense Cert.Lib.Rectify

/-! ## The joined array, run by run -/

/-- Columns 0–127 of the joined array are the receiver's. -/
theorem joined_r (x0 x1 x2 : FVec Ideal S327680x128 .f32) (x3 : FVec Ideal S1x128 .f32) (r : Fin 327680) (k : Fin 128) :
    val_main_v3 (F := Ideal) x0 x1 x2 x3 (ix2 r ⟨k.val, by have := k.isLt; omega⟩) = x0 (ix2 r k) := by
  unfold val_main_v3
  refine concatenate_apply_piece (t := S327680x512) 1 _ _ _ 0 ?_ S327680x128 x0 ?_ ?_ 0 ?_ (ix2 r k) ?_ ?_
  · exact (by decide : (0 : Nat) < 4)
  · rfl
  · rfl
  · rfl
  · intro b hb
    match b with
    | ⟨0, _⟩ => rfl
    | ⟨1, _⟩ => exact absurd rfl hb
  · exact Nat.zero_add _

/-- Columns 128–255 are the sender's. -/
theorem joined_s (x0 x1 x2 : FVec Ideal S327680x128 .f32) (x3 : FVec Ideal S1x128 .f32) (r : Fin 327680) (k : Fin 128) :
    val_main_v3 (F := Ideal) x0 x1 x2 x3 (ix2 r ⟨128 + k.val, by have := k.isLt; omega⟩) = x1 (ix2 r k) := by
  unfold val_main_v3
  refine concatenate_apply_piece (t := S327680x512) 1 _ _ _ 1 ?_ S327680x128 x1 ?_ ?_ 128 ?_ (ix2 r k) ?_ ?_
  · exact (by decide : (1 : Nat) < 4)
  · rfl
  · rfl
  · rfl
  · intro b hb
    match b with
    | ⟨0, _⟩ => rfl
    | ⟨1, _⟩ => exact absurd rfl hb
  · rfl

/-- Columns 256–383 are the edge's. -/
theorem joined_e (x0 x1 x2 : FVec Ideal S327680x128 .f32) (x3 : FVec Ideal S1x128 .f32) (r : Fin 327680) (k : Fin 128) :
    val_main_v3 (F := Ideal) x0 x1 x2 x3 (ix2 r ⟨256 + k.val, by have := k.isLt; omega⟩) = x2 (ix2 r k) := by
  unfold val_main_v3
  refine concatenate_apply_piece (t := S327680x512) 1 _ _ _ 2 ?_ S327680x128 x2 ?_ ?_ 256 ?_ (ix2 r k) ?_ ?_
  · exact (by decide : (2 : Nat) < 4)
  · rfl
  · rfl
  · rfl
  · intro b hb
    match b with
    | ⟨0, _⟩ => rfl
    | ⟨1, _⟩ => exact absurd rfl hb
  · rfl

/-- The global row repeated down the edges reads the row's own column, whatever the edge. -/
theorem tiled (x3 : FVec Ideal S1x128 .f32) (r : Fin 327680) (k : Fin 128) :
    val_main_v2 (F := Ideal) x3 (ix2 r k) = x3 (ix2 0 k) := by
  rw [val_main_v2_apply, val_main_v1_apply, val_main_v0_apply]
  refine congrArg x3 (funext fun a => Fin.ext ?_)
  have hr := r.isLt
  have hk := k.isLt
  match a with
  | ⟨0, _⟩ => rfl
  | ⟨1, _⟩ =>
    show ((((0 * 1 + 0) * 1 + 0) * 128 + (r.val * 128 + k.val) % 128) % 128) = k.val
    omega

/-- Columns 384–511 are the global row's. -/
theorem joined_g (x0 x1 x2 : FVec Ideal S327680x128 .f32) (x3 : FVec Ideal S1x128 .f32) (r : Fin 327680) (k : Fin 128) :
    val_main_v3 (F := Ideal) x0 x1 x2 x3 (ix2 r ⟨384 + k.val, by have := k.isLt; omega⟩) = x3 (ix2 0 k) := by
  refine Eq.trans ?_ (tiled x3 r k)
  unfold val_main_v3
  refine concatenate_apply_piece (t := S327680x512) 1 _ _ _ 3 ?_ S327680x128 (val_main_v2 (F := Ideal) x3) ?_ ?_ 384 ?_ (ix2 r k) ?_ ?_
  · exact (by decide : (3 : Nat) < 4)
  · rfl
  · rfl
  · rfl
  · intro b hb
    match b with
    | ⟨0, _⟩ => rfl
    | ⟨1, _⟩ => exact absurd rfl hb
  · rfl

/-! ## The layers -/

/-- The first layer before its rectifier: the host's product of the joined array with the [512, 128] matrix plus the
    bias is the four-product form over the matrix's four blocks of rows. -/
theorem first_layer (x0 x1 x2 : FVec Ideal S327680x128 .f32) (x3 : FVec Ideal S1x128 .f32) (x4 : FVec Ideal S512x128 .f32)
    (x5 : FVec Ideal S128 .f32) :
    val_main_v7 (F := Ideal) x0 x1 x2 x3 x4 x5
      = mix x0 x1 x2 x3 (rowsFrom 0 (by decide) x4) (rowsFrom 128 (by decide) x4) (rowsFrom 256 (by decide) x4)
          (rowsFrom 384 (by decide) x4) (biasRow x5) := by
  have h : val_main_v7 (F := Ideal) x0 x1 x2 x3 x4 x5 = affine (val_main_v3 (F := Ideal) x0 x1 x2 x3) x4 (biasRow x5) :=
    host_affine_row (M := 327680) (K := 512) (N := 128) (val_main_v3 (F := Ideal) x0 x1 x2 x3) x4 x5 bcast_S128_S1x128_1
      bcast_S1x128_S327680x128_0_1
  rw [h]
  funext j
  exact affine_joined _ x4 _ x0 x1 x2 x3 j (fun k => joined_r x0 x1 x2 x3 (j 0) k) (fun k => joined_s x0 x1 x2 x3 (j 0) k)
    (fun k => joined_e x0 x1 x2 x3 (j 0) k) (fun k => joined_g x0 x1 x2 x3 (j 0) k)

/-- The reference's result term is `result` of the arguments. -/
theorem ref_eq (x0 x1 x2 : FVec Ideal S327680x128 .f32) (x3 : FVec Ideal S1x128 .f32) (x4 : FVec Ideal S512x128 .f32)
    (x5 : FVec Ideal S128 .f32) (x6 : FVec Ideal S128x128 .f32) (x7 : FVec Ideal S128 .f32) (x8 : FVec Ideal S128x128 .f32)
    (x9 : FVec Ideal S128 .f32) (x10 : FVec Ideal S128x128 .f32) (x11 : FVec Ideal S128 .f32) :
    val_main_v22 (F := Ideal) x0 x1 x2 x3 x4 x5 x6 x7 x8 x9 x10 x11 = result x0 x1 x2 x3 x4 x5 x6 x7 x8 x9 x10 x11 := by
  unfold result net
  rw [← first_layer x0 x1 x2 x3 x4 x5,
    ← relu_host (val_main_v7 (F := Ideal) x0 x1 x2 x3 x4 x5) bcast_S_S327680x128,
    ← host_affine_row (M := 327680) (K := 128) (N := 128) _ x6 x7 bcast_S128_S1x128_1 bcast_S1x128_S327680x128_0_1,
    ← relu_host _ bcast_S_S327680x128,
    ← host_affine_row (M := 327680) (K := 128) (N := 128) _ x8 x9 bcast_S128_S1x128_1 bcast_S1x128_S327680x128_0_1,
    ← relu_host _ bcast_S_S327680x128,
    ← host_affine_row (M := 327680) (K := 128) (N := 128) _ x10 x11 bcast_S128_S1x128_1 bcast_S1x128_S327680x128_0_1]
  rfl

end Cert.ReferenceIdeal.RefValue

end
-- ==== Proof.lean ====
/-
  The edge network of a graph layer — receiver, sender, edge and global features through four affine layers, a rectifier
  after the first three — computed by one gridded kernel that never joins the four feature arrays, against the plain
  reference that joins them into a [327680, 512] array first.

  At the extended reals both programs end with the same array, `Cert.EdgeMlp.result` of the twelve arguments:
  * the kernel's first layer adds four [., 128] x [128, 128] products, the reference's is one [., 512] x [512, 128]
    product of the joined rows: a sum over 512 positions is the sum of its four runs of 128 (associativity and
    commutativity of addition only, so no finiteness is needed and the precondition is never opened);
  * a change of float format is the identity, a block product into a zero accumulator and the host's dot product are the
    same sum, the rectifier is the same maximum with the zero word on both sides;
  * every layer is row-wise, so the block of 4096 rows a grid point computes is that block of the whole result, and the 80
    blocks tile the result array.
  The three frames are the generated ones (the reference's is its generated run with the result dropped); nothing was
  rewritten by the idealization, so the preservation claim is trivial.
-/
import proofs.«163525_j25598005084721_1_alg».proof.Defs
import proofs.«163525_j25598005084721_1_alg».proof.Proof.Gen.Kernel
import proofs.«163525_j25598005084721_1_alg».proof.Proof.Gen.Kernel.Frame
import proofs.«163525_j25598005084721_1_alg».proof.Proof.Gen.KernelIdeal
import proofs.«163525_j25598005084721_1_alg».proof.Proof.Gen.KernelIdeal.Frame
import proofs.«163525_j25598005084721_1_alg».proof.Proof.Gen.KernelIdeal.Value
import proofs.«163525_j25598005084721_1_alg».proof.Proof.Gen.ReferenceIdeal
import proofs.«163525_j25598005084721_1_alg».proof.Proof.Gen.ReferenceIdeal.Run
import proofs.«163525_j25598005084721_1_alg».proof.Proof.Gen.ReferenceIdeal.Read
import proofs.«163525_j25598005084721_1_alg».proof.Proof.Gen.Pre_finite_inputs
import proofs.«163525_j25598005084721_1_alg».proof.Proof.KernelArray
import proofs.«163525_j25598005084721_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with `result` of the arguments in their result arrays. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [a0, a1, a2, a3, a4, a5, a6, a7, a8, a9, a10, a11]
  exact Cert.ReferenceIdeal.RefValue.ref_eq _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
